-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 93
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000x1, .f32⟩
  | .hbm, ⟨56, _⟩ => ⟨S_, .f32⟩
  | .hbm, ⟨57, _⟩ => ⟨S100000x1, .f32⟩
  | .hbm, ⟨58, _⟩ => ⟨S1600000x1, .i32⟩
  | .hbm, ⟨59, _⟩ => ⟨S100000x1, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S_, .f32⟩
  | .hbm, ⟨81, _⟩ => ⟨S1600000x1, .f32⟩
  | .hbm, ⟨82, _⟩ => ⟨S_, .f32⟩
  | .hbm, ⟨83, _⟩ => ⟨S100000x1, .f32⟩
  | .hbm, ⟨84, _⟩ => ⟨S1600000x1, .i32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S1x64, .f32⟩
  | .hbm, ⟨92, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000x1, .f32⟩
  | .hbm, ⟨61, _⟩ => ⟨S_, .f32⟩
  | .hbm, ⟨62, _⟩ => ⟨S100000x1, .f32⟩
  | .hbm, ⟨63, _⟩ => ⟨S1600000x1, .i32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S_, .f32⟩
  | .hbm, ⟨91, _⟩ => ⟨S1600000x1, .f32⟩
  | .hbm, ⟨92, _⟩ => ⟨S_, .f32⟩
  | .hbm, ⟨93, _⟩ => ⟨S100000x1, .f32⟩
  | .hbm, ⟨94, _⟩ => ⟨S1600000x1, .i32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  One SAGEConv layer before its activation, as a function of coordinates: for node `p` and output feature `q`,
  `(Σ_k a[p,k]·Wl[k,q] + Σ_k x[p,k]·Wr[k,q]) + b[q]` on the extended reals, where `a` is the mean of the
  neighbours' features and `x` the node's own. Both programs compute exactly this sum in exactly this grouping
  (neighbour product, plus root product, plus bias), so no law of the extended reals beyond re-indexing a finite
  sum is needed to join them.
-/
import Idealize.ShloMosaic.PureOps.Ideal
import Idealize.ShloMosaic.Lib.ValueIdx

noncomputable section

namespace Cert.Sage

open Idealize.ShloMosaic Idealize.ShloMosaic.ValueIdx

/-- A rank-2 array read by its two coordinates. -/
abbrev rd2 {α : Type} {n0 n1 : ℕ} (X : (⟨2, ![n0, n1]⟩ : Shape).Idx → α) : Fin n0 → Fin n1 → α := fun p q => X (ix2 p q)

/-- A rank-1 array read by its coordinate. -/
abbrev rd1 {α : Type} {n : ℕ} (X : (⟨1, ![n]⟩ : Shape).Idx → α) : Fin n → α := fun q => X (ix1 q)

/-- The layer's affine part at node `p`, feature `q`: neighbour mean times `Wl`, plus own features times `Wr`, plus bias. -/
def lin {N K D : ℕ} (a x : Fin N → Fin K → EReal) (Wl Wr : Fin K → Fin D → EReal) (b : Fin D → EReal)
    (p : Fin N) (q : Fin D) : EReal :=
  (∑ k : Fin K, a p k * Wl k q + ∑ k : Fin K, x p k * Wr k q) + b q

/-- The affine part at `(p, q)` depends only on row `p` of `a` and `x`, column `q` of the weights and entry `q` of the bias:
    two readings that agree there (a block against the whole array, say) give the same value. -/
theorem lin_congr {N N' K D D' : ℕ} (a x : Fin N → Fin K → EReal) (a' x' : Fin N' → Fin K → EReal)
    (Wl Wr : Fin K → Fin D → EReal) (Wl' Wr' : Fin K → Fin D' → EReal) (b : Fin D → EReal) (b' : Fin D' → EReal)
    (p : Fin N) (p' : Fin N') (q : Fin D) (q' : Fin D')
    (ha : ∀ k, a p k = a' p' k) (hx : ∀ k, x p k = x' p' k)
    (hl : ∀ k, Wl k q = Wl' k q') (hr : ∀ k, Wr k q = Wr' k q') (hb : b q = b' q') :
    lin a x Wl Wr b p q = lin a' x' Wl' Wr' b' p' q' := by
  unfold lin
  simp only [ha, hx, hl, hr, hb]

/-- A whole layer as a function on the node-by-feature array: the activation `act` (tanh, or the identity for the last
    layer) of the affine part at the index's two coordinates. -/
def layer {N K D : ℕ} (act : EReal → EReal) (a x : (⟨2, ![N, K]⟩ : Shape).Idx → EReal)
    (Wl Wr : (⟨2, ![K, D]⟩ : Shape).Idx → EReal) (b : Fin D → EReal) : (⟨2, ![N, D]⟩ : Shape).Idx → EReal :=
  fun i => act (lin (rd2 a) (rd2 x) (rd2 Wl) (rd2 Wr) b ⟨(i 0).val, (i 0).isLt⟩ ⟨(i 1).val, (i 1).isLt⟩)

end Cert.Sage

end
-- ==== Proof.KernelBlock0.lean ====
/-
  Region 0's body, read at one element of its block. The body casts the two row blocks and the two weight matrices
  to bf16 (the identity on the extended reals), multiplies each pair into a zero accumulator, adds the two products,
  adds the bias row broadcast over the rows and applies the layer's activation `act` (tanh in the first two
  layers). At row `p`, column `q` this is `act` of the layer's affine part `lin` of the blocks' rows, the
  contraction re-indexed from the product's own index type to `Fin 128`.
-/
import proofs.«167249_j60610578481667_1_alg».proof.Proof.Gen.KernelIdeal.Skeleton
import proofs.«167249_j60610578481667_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block0

open Idealize.ShloMosaic Idealize.ShloMosaic.ValueIdx Cert.KernelIdeal Cert.KernelIdeal.Gen Cert.Sage

/-- The layer's activation. -/
abbrev act : EReal → EReal := Ideal.tanh

/-! ### The block product's operand indices: output `(p, q)` and contraction position `k` read the left operand at
    `(p, k)` and the right at `(k, q)` -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, read at row `p`, column `q`: the sum over the contracted axis of the
    left operand's row `p` times the right operand's column `q`. -/
theorem mm_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body at row `p`, column `q` of its block: the activation of the layer's affine part of the loaded blocks
    (the casts to bf16 are the identity on the extended reals, and the one bias row is read at every row). -/
theorem pay_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = act (lin (rd2 x0) (rd2 x1) (rd2 x2) (rd2 x3) (fun q => x4 (ix2 (0 : Fin 1) q)) p q) := by
  unfold k0_pay1
  simp only [shapeCast_self]
  show act ((matmul (F := Ideal) _ none _ _ _ (ix2 p q) + matmul (F := Ideal) _ none _ _ _ (ix2 p q)) + broadcastTo S2000x128 x4 _ (ix2 p q)) = _
  rw [mm_apply, mm_apply, ValueIdx.broadcastTo_1b_ab_apply]
  rfl

end Cert.KernelIdeal.Block0

end
-- ==== Proof.KernelArr0.lean ====
/-
  Region 0's result array. The region runs its body once per block of 2000 nodes; at point `t` the output window's
  block is rows `2000·t … 2000·t + 1999`, the two row inputs' blocks are the same rows of their arrays, and the weight
  and bias windows hold their whole arrays at every point. So what point `t` writes back is block `t` of ONE function
  of the arrays the region finds, `layer` of them, and since the 50 blocks tile the 100000 rows the result array ends
  holding that function. Stated for any entry contents `V`, so that it serves whatever the program put there before.
-/
import proofs.«167249_j60610578481667_1_alg».proof.Proof.Gen.KernelIdeal.Frame
import proofs.«167249_j60610578481667_1_alg».proof.Proof.KernelBlock0
import Idealize.ShloMosaic.Lib.Pipeline.Value

set_option maxRecDepth 16384

noncomputable section

namespace Cert.KernelIdeal.Arr0

open Idealize.ShloMosaic Idealize.ShloMosaic.TcCoe Idealize.SL.Sem Idealize.ShloMosaic.ValueIdx
open Idealize.ShloMosaic.Pipeline (Dat)
open Cert.KernelIdeal Cert.KernelIdeal.Gen Cert.Sage
open Cert.KernelIdeal.Block0 (act)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, at their literal types: neighbour means, own features, the two weights, the bias row. -/
abbrev aArr (c : Dev nD) : S100000x128.Idx → EReal := V c main_v21
abbrev xArr (c : Dev nD) : S100000x128.Idx → EReal := V c main_arg0
abbrev lArr (c : Dev nD) : S128x128.Idx → EReal := V c main_arg2
abbrev rArr (c : Dev nD) : S128x128.Idx → EReal := V c main_arg3
abbrev bArr (c : Dev nD) : S1x128.Idx → EReal := V c main_v22

/-- What the result array ends holding: the layer of the arrays the region finds. -/
abbrev result (c : Dev nD) : S100000x128.Idx → EReal :=
  layer act (aArr V c) (xArr V c) (lArr V c) (rArr V c) (fun q => bArr V c (ix2 (0 : Fin 1) q))

/-- Each window's block index at a point, decided over the 50 points: the row windows and the output move with the
    point along the rows, the weight and bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 1000000 in
/-- WHAT POINT `t` WRITES BACK is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 2000) (q : Fin 128), j = ix2 p q := ⟨j 0, j 1, eq_ix2 j⟩
  refine (Block0.pay_apply (iblk0 V c 0 t) (iblk0 V c 1 t) (iblk0 V c 2 t) (iblk0 V c 3 t) (iblk0 V c 4 t) p q).trans ?_
  show _ = layer act (aArr V c) (xArr V c) (lArr V c) (rArr V c) (fun q => bArr V c (ix2 (0 : Fin 1) q)) (((cfg0.win 5).blk t).view.emb (ix2 p q))
  unfold layer
  refine congrArg act (lin_congr _ _ _ _ _ _ _ _ _ _ _ _ _ _ (fun k => ?_) (fun k => ?_) (fun k => ?_) (fun k => ?_) ?_)
  · show iblk0 V c 0 t (ix2 p k) = aArr V c (ix2 _ k)
    unfold iblk0
    rw [View.read_apply]
    show V c main_v21 _ = V c main_v21 _
    refine congrArg (V c main_v21) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  · show iblk0 V c 1 t (ix2 p k) = xArr V c (ix2 _ k)
    unfold iblk0
    rw [View.read_apply]
    show V c main_arg0 _ = V c main_arg0 _
    refine congrArg (V c main_arg0) (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  · show iblk0 V c 2 t (ix2 k q) = lArr V c (ix2 k _)
    unfold iblk0
    rw [View.read_apply]
    show V c main_arg2 _ = V c main_arg2 _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show iblk0 V c 3 t (ix2 k q) = rArr V c (ix2 k _)
    unfold iblk0
    rw [View.read_apply]
    show V c main_arg3 _ = V c main_arg3 _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show iblk0 V c 4 t (ix2 (0 : Fin 1) q) = bArr V c (ix2 (0 : Fin 1) _)
    unfold iblk0
    rw [View.read_apply]
    show V c main_v22 _ = V c main_v22 _
    refine congrArg (V c main_v22) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- THE RESULT ARRAY after the region: `result` — row `r` lies in the block of point `r / 2000`. -/
theorem final (c : Dev nD) : (dat0 V c).arrAt 5 cfg0.N = result V c :=
  (dat0 V c).arrAt_eq_of_cover 5 (result V c) (fun t _ => flushed_eq V c t) fun i => by
    have hi0 : (i 0).val < 100000 := (i 0).isLt
    have hi1 : (i 1).val < 128 := (i 1).isLt
    refine ⟨⟨(i 0).val / 2000, by show (i 0).val / 2000 < 50; omega⟩, flush0_5 _, ?_⟩
    rw [mem_blk]
    obtain ⟨-, -, -, -, -, -, -, -, -, -, e50, e51⟩ := idx_facts ⟨(i 0).val / 2000, by show (i 0).val / 2000 < 50; omega⟩
    intro a
    match a with
    | ⟨0, _⟩ =>
      show win0_5.index _ (0 : Fin 2) * 2000 ≤ (i 0).val ∧ (i 0).val < win0_5.index _ (0 : Fin 2) * 2000 + 2000
      rw [e50]; show (i 0).val / 2000 * 2000 ≤ (i 0).val ∧ (i 0).val < (i 0).val / 2000 * 2000 + 2000; omega
    | ⟨1, _⟩ =>
      show win0_5.index _ (1 : Fin 2) * 128 ≤ (i 1).val ∧ (i 1).val < win0_5.index _ (1 : Fin 2) * 128 + 128
      rw [e51]; omega

end Cert.KernelIdeal.Arr0

end
-- ==== Proof.KernelBlock1.lean ====
/-
  Region 1's body, read at one element of its block. The body casts the two row blocks and the two weight matrices
  to bf16 (the identity on the extended reals), multiplies each pair into a zero accumulator, adds the two products,
  adds the bias row broadcast over the rows and applies the layer's activation `act` (tanh in the first two
  layers). At row `p`, column `q` this is `act` of the layer's affine part `lin` of the blocks' rows, the
  contraction re-indexed from the product's own index type to `Fin 128`.
-/
import proofs.«167249_j60610578481667_1_alg».proof.Proof.Gen.KernelIdeal.Skeleton
import proofs.«167249_j60610578481667_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block1

open Idealize.ShloMosaic Idealize.ShloMosaic.ValueIdx Cert.KernelIdeal Cert.KernelIdeal.Gen Cert.Sage

/-- The layer's activation. -/
abbrev act : EReal → EReal := Ideal.tanh

/-! ### The block product's operand indices: output `(p, q)` and contraction position `k` read the left operand at
    `(p, k)` and the right at `(k, q)` -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, read at row `p`, column `q`: the sum over the contracted axis of the
    left operand's row `p` times the right operand's column `q`. -/
theorem mm_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body at row `p`, column `q` of its block: the activation of the layer's affine part of the loaded blocks
    (the casts to bf16 are the identity on the extended reals, and the one bias row is read at every row). -/
theorem pay_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = act (lin (rd2 x0) (rd2 x1) (rd2 x2) (rd2 x3) (fun q => x4 (ix2 (0 : Fin 1) q)) p q) := by
  unfold k1_pay1
  simp only [shapeCast_self]
  show act ((matmul (F := Ideal) _ none _ _ _ (ix2 p q) + matmul (F := Ideal) _ none _ _ _ (ix2 p q)) + broadcastTo S2000x128 x4 _ (ix2 p q)) = _
  rw [mm_apply, mm_apply, ValueIdx.broadcastTo_1b_ab_apply]
  rfl

end Cert.KernelIdeal.Block1

end
-- ==== Proof.KernelArr1.lean ====
/-
  Region 1's result array. The region runs its body once per block of 2000 nodes; at point `t` the output window's
  block is rows `2000·t … 2000·t + 1999`, the two row inputs' blocks are the same rows of their arrays, and the weight
  and bias windows hold their whole arrays at every point. So what point `t` writes back is block `t` of ONE function
  of the arrays the region finds, `layer` of them, and since the 50 blocks tile the 100000 rows the result array ends
  holding that function. Stated for any entry contents `V`, so that it serves whatever the program put there before.
-/
import proofs.«167249_j60610578481667_1_alg».proof.Proof.Gen.KernelIdeal.Frame
import proofs.«167249_j60610578481667_1_alg».proof.Proof.KernelBlock1
import Idealize.ShloMosaic.Lib.Pipeline.Value

set_option maxRecDepth 16384

noncomputable section

namespace Cert.KernelIdeal.Arr1

open Idealize.ShloMosaic Idealize.ShloMosaic.TcCoe Idealize.SL.Sem Idealize.ShloMosaic.ValueIdx
open Idealize.ShloMosaic.Pipeline (Dat)
open Cert.KernelIdeal Cert.KernelIdeal.Gen Cert.Sage
open Cert.KernelIdeal.Block1 (act)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, at their literal types: neighbour means, own features, the two weights, the bias row. -/
abbrev aArr (c : Dev nD) : S100000x128.Idx → EReal := V c main_v41
abbrev xArr (c : Dev nD) : S100000x128.Idx → EReal := V c main_v23
abbrev lArr (c : Dev nD) : S128x128.Idx → EReal := V c main_arg5
abbrev rArr (c : Dev nD) : S128x128.Idx → EReal := V c main_arg6
abbrev bArr (c : Dev nD) : S1x128.Idx → EReal := V c main_v42

/-- What the result array ends holding: the layer of the arrays the region finds. -/
abbrev result (c : Dev nD) : S100000x128.Idx → EReal :=
  layer act (aArr V c) (xArr V c) (lArr V c) (rArr V c) (fun q => bArr V c (ix2 (0 : Fin 1) q))

/-- Each window's block index at a point, decided over the 50 points: the row windows and the output move with the
    point along the rows, the weight and bias windows stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1000000 in
/-- WHAT POINT `t` WRITES BACK is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 2000) (q : Fin 128), j = ix2 p q := ⟨j 0, j 1, eq_ix2 j⟩
  refine (Block1.pay_apply (iblk1 V c 0 t) (iblk1 V c 1 t) (iblk1 V c 2 t) (iblk1 V c 3 t) (iblk1 V c 4 t) p q).trans ?_
  show _ = layer act (aArr V c) (xArr V c) (lArr V c) (rArr V c) (fun q => bArr V c (ix2 (0 : Fin 1) q)) (((cfg1.win 5).blk t).view.emb (ix2 p q))
  unfold layer
  refine congrArg act (lin_congr _ _ _ _ _ _ _ _ _ _ _ _ _ _ (fun k => ?_) (fun k => ?_) (fun k => ?_) (fun k => ?_) ?_)
  · show iblk1 V c 0 t (ix2 p k) = aArr V c (ix2 _ k)
    unfold iblk1
    rw [View.read_apply]
    show V c main_v41 _ = V c main_v41 _
    refine congrArg (V c main_v41) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  · show iblk1 V c 1 t (ix2 p k) = xArr V c (ix2 _ k)
    unfold iblk1
    rw [View.read_apply]
    show V c main_v23 _ = V c main_v23 _
    refine congrArg (V c main_v23) (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  · show iblk1 V c 2 t (ix2 k q) = lArr V c (ix2 k _)
    unfold iblk1
    rw [View.read_apply]
    show V c main_arg5 _ = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · show iblk1 V c 3 t (ix2 k q) = rArr V c (ix2 k _)
    unfold iblk1
    rw [View.read_apply]
    show V c main_arg6 _ = V c main_arg6 _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show iblk1 V c 4 t (ix2 (0 : Fin 1) q) = bArr V c (ix2 (0 : Fin 1) _)
    unfold iblk1
    rw [View.read_apply]
    show V c main_v42 _ = V c main_v42 _
    refine congrArg (V c main_v42) (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v43).slice (win1_5.rect t)).set ↔ _
  rw [View.set_slice_whole, Rect.mem_set_unit]
  exact Iff.rfl

/-- THE RESULT ARRAY after the region: `result` — row `r` lies in the block of point `r / 2000`. -/
theorem final (c : Dev nD) : (dat1 V c).arrAt 5 cfg1.N = result V c :=
  (dat1 V c).arrAt_eq_of_cover 5 (result V c) (fun t _ => flushed_eq V c t) fun i => by
    have hi0 : (i 0).val < 100000 := (i 0).isLt
    have hi1 : (i 1).val < 128 := (i 1).isLt
    refine ⟨⟨(i 0).val / 2000, by show (i 0).val / 2000 < 50; omega⟩, flush1_5 _, ?_⟩
    rw [mem_blk]
    obtain ⟨-, -, -, -, -, -, -, -, -, -, e50, e51⟩ := idx_facts ⟨(i 0).val / 2000, by show (i 0).val / 2000 < 50; omega⟩
    intro a
    match a with
    | ⟨0, _⟩ =>
      show win1_5.index _ (0 : Fin 2) * 2000 ≤ (i 0).val ∧ (i 0).val < win1_5.index _ (0 : Fin 2) * 2000 + 2000
      rw [e50]; show (i 0).val / 2000 * 2000 ≤ (i 0).val ∧ (i 0).val < (i 0).val / 2000 * 2000 + 2000; omega
    | ⟨1, _⟩ =>
      show win1_5.index _ (1 : Fin 2) * 128 ≤ (i 1).val ∧ (i 1).val < win1_5.index _ (1 : Fin 2) * 128 + 128
      rw [e51]; omega

end Cert.KernelIdeal.Arr1

end
-- ==== Proof.KernelBlock2.lean ====
/-
  Region 2's body, read at one element of its block. The body casts the two row blocks and the two weight matrices
  to bf16 (the identity on the extended reals), multiplies each pair into a zero accumulator, adds the two products,
  adds the bias row broadcast over the rows and applies the layer's activation `act` (the identity in this last
  layer). At row `p`, column `q` this is `act` of the layer's affine part `lin` of the blocks' rows, the
  contraction re-indexed from the product's own index type to `Fin 128`.
-/
import proofs.«167249_j60610578481667_1_alg».proof.Proof.Gen.KernelIdeal.Skeleton
import proofs.«167249_j60610578481667_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block2

open Idealize.ShloMosaic Idealize.ShloMosaic.ValueIdx Cert.KernelIdeal Cert.KernelIdeal.Gen Cert.Sage

/-- The layer's activation. -/
abbrev act : EReal → EReal := id

/-! ### The block product's operand indices: output `(p, q)` and contraction position `k` read the left operand at
    `(p, k)` and the right at `(k, q)` -/

theorem lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A block product into the zero accumulator, read at row `p`, column `q`: the sum over the contracted axis of the
    left operand's row `p` times the right operand's column `q`. -/
theorem mm_apply {φ₁ φ₂ : FTy} (l : FVec Ideal S2000x128 φ₁) (r : FVec Ideal S128x64 φ₂) (p : Fin 2000) (q : Fin 64) :
    matmul dot_S2000x128_S128x64_S2000x64_1_0_0_1_n_n none l r (constant S2000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body at row `p`, column `q` of its block: the activation of the layer's affine part of the loaded blocks
    (the casts to bf16 are the identity on the extended reals, and the one bias row is read at every row). -/
theorem pay_apply (x0 x1 : Vec Ideal S2000x128 .f32) (x2 x3 : Vec Ideal S128x64 .f32) (x4 : Vec Ideal S1x64 .f32)
    (p : Fin 2000) (q : Fin 64) :
    k2_pay1 (F := Ideal) x0 x1 x2 x3 x4 (ix2 p q)
      = act (lin (rd2 x0) (rd2 x1) (rd2 x2) (rd2 x3) (fun q => x4 (ix2 (0 : Fin 1) q)) p q) := by
  unfold k2_pay1
  simp only [shapeCast_self]
  show act ((matmul (F := Ideal) _ none _ _ _ (ix2 p q) + matmul (F := Ideal) _ none _ _ _ (ix2 p q)) + broadcastTo S2000x64 x4 _ (ix2 p q)) = _
  rw [mm_apply, mm_apply, ValueIdx.broadcastTo_1b_ab_apply]
  rfl

end Cert.KernelIdeal.Block2

end
-- ==== Proof.KernelArr2.lean ====
/-
  Region 2's result array. The region runs its body once per block of 2000 nodes; at point `t` the output window's
  block is rows `2000·t … 2000·t + 1999`, the two row inputs' blocks are the same rows of their arrays, and the weight
  and bias windows hold their whole arrays at every point. So what point `t` writes back is block `t` of ONE function
  of the arrays the region finds, `layer` of them, and since the 50 blocks tile the 100000 rows the result array ends
  holding that function. Stated for any entry contents `V`, so that it serves whatever the program put there before.
-/
import proofs.«167249_j60610578481667_1_alg».proof.Proof.Gen.KernelIdeal.Frame
import proofs.«167249_j60610578481667_1_alg».proof.Proof.KernelBlock2
import Idealize.ShloMosaic.Lib.Pipeline.Value

set_option maxRecDepth 16384

noncomputable section

namespace Cert.KernelIdeal.Arr2

open Idealize.ShloMosaic Idealize.ShloMosaic.TcCoe Idealize.SL.Sem Idealize.ShloMosaic.ValueIdx
open Idealize.ShloMosaic.Pipeline (Dat)
open Cert.KernelIdeal Cert.KernelIdeal.Gen Cert.Sage
open Cert.KernelIdeal.Block2 (act)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, at their literal types: neighbour means, own features, the two weights, the bias row. -/
abbrev aArr (c : Dev nD) : S100000x128.Idx → EReal := V c main_v61
abbrev xArr (c : Dev nD) : S100000x128.Idx → EReal := V c main_v43
abbrev lArr (c : Dev nD) : S128x64.Idx → EReal := V c main_arg8
abbrev rArr (c : Dev nD) : S128x64.Idx → EReal := V c main_arg9
abbrev bArr (c : Dev nD) : S1x64.Idx → EReal := V c main_v62

/-- What the result array ends holding: the layer of the arrays the region finds. -/
abbrev result (c : Dev nD) : S100000x64.Idx → EReal :=
  layer act (aArr V c) (xArr V c) (lArr V c) (rArr V c) (fun q => bArr V c (ix2 (0 : Fin 1) q))

/-- Each window's block index at a point, decided over the 50 points: the row windows and the output move with the
    point along the rows, the weight and bias windows stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1000000 in
/-- WHAT POINT `t` WRITES BACK is block `t` of `result`. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x64) hz, View.ld_unit_zero (S := S1x64) hz]
  obtain ⟨e00, e01, e10, e11, e20, e21, e30, e31, e40, e41, e50, e51⟩ := idx_facts t
  funext j
  obtain ⟨p, q, rfl⟩ : ∃ (p : Fin 2000) (q : Fin 64), j = ix2 p q := ⟨j 0, j 1, eq_ix2 j⟩
  refine (Block2.pay_apply (iblk2 V c 0 t) (iblk2 V c 1 t) (iblk2 V c 2 t) (iblk2 V c 3 t) (iblk2 V c 4 t) p q).trans ?_
  show _ = layer act (aArr V c) (xArr V c) (lArr V c) (rArr V c) (fun q => bArr V c (ix2 (0 : Fin 1) q)) (((cfg2.win 5).blk t).view.emb (ix2 p q))
  unfold layer
  refine congrArg act (lin_congr _ _ _ _ _ _ _ _ _ _ _ _ _ _ (fun k => ?_) (fun k => ?_) (fun k => ?_) (fun k => ?_) ?_)
  · show iblk2 V c 0 t (ix2 p k) = aArr V c (ix2 _ k)
    unfold iblk2
    rw [View.read_apply]
    show V c main_v61 _ = V c main_v61 _
    refine congrArg (V c main_v61) (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * k.val = k.val; omega
  · show iblk2 V c 1 t (ix2 p k) = xArr V c (ix2 _ k)
    unfold iblk2
    rw [View.read_apply]
    show V c main_v43 _ = V c main_v43 _
    refine congrArg (V c main_v43) (funext fun a => Fin.ext ?_)
    match a with
    | ⟨0, _⟩ => show win2_1.index t (0 : Fin 2) * 2000 + 1 * p.val = win2_5.index t (0 : Fin 2) * 2000 + 1 * p.val; omega
    | ⟨1, _⟩ => show win2_1.index t (1 : Fin 2) * 128 + 1 * k.val = k.val; omega
  · show iblk2 V c 2 t (ix2 k q) = lArr V c (ix2 k _)
    unfold iblk2
    rw [View.read_apply]
    show V c main_arg8 _ = V c main_arg8 _
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 64 + 1 * q.val = win2_5.index t (1 : Fin 2) * 64 + 1 * q.val; omega
  · show iblk2 V c 3 t (ix2 k q) = rArr V c (ix2 k _)
    unfold iblk2
    rw [View.read_apply]
    show V c main_arg9 _ = V c main_arg9 _
    refine congrArg (V c main_arg9) (funext fun a => Fin.ext ?_)
    match a with
    | ⟨0, _⟩ => show win2_3.index t (0 : Fin 2) * 128 + 1 * k.val = k.val; omega
    | ⟨1, _⟩ => show win2_3.index t (1 : Fin 2) * 64 + 1 * q.val = win2_5.index t (1 : Fin 2) * 64 + 1 * q.val; omega
  · show iblk2 V c 4 t (ix2 (0 : Fin 1) q) = bArr V c (ix2 (0 : Fin 1) _)
    unfold iblk2
    rw [View.read_apply]
    show V c main_v62 _ = V c main_v62 _
    refine congrArg (V c main_v62) (funext fun a => Fin.ext ?_)
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v63).slice (win2_5.rect t)).set ↔ _
  rw [View.set_slice_whole, Rect.mem_set_unit]
  exact Iff.rfl

/-- THE RESULT ARRAY after the region: `result` — row `r` lies in the block of point `r / 2000`. -/
theorem final (c : Dev nD) : (dat2 V c).arrAt 5 cfg2.N = result V c :=
  (dat2 V c).arrAt_eq_of_cover 5 (result V c) (fun t _ => flushed_eq V c t) fun i => by
    have hi0 : (i 0).val < 100000 := (i 0).isLt
    have hi1 : (i 1).val < 64 := (i 1).isLt
    refine ⟨⟨(i 0).val / 2000, by show (i 0).val / 2000 < 50; omega⟩, flush2_5 _, ?_⟩
    rw [mem_blk]
    obtain ⟨-, -, -, -, -, -, -, -, -, -, e50, e51⟩ := idx_facts ⟨(i 0).val / 2000, by show (i 0).val / 2000 < 50; omega⟩
    intro a
    match a with
    | ⟨0, _⟩ =>
      show win2_5.index _ (0 : Fin 2) * 2000 ≤ (i 0).val ∧ (i 0).val < win2_5.index _ (0 : Fin 2) * 2000 + 2000
      rw [e50]; show (i 0).val / 2000 * 2000 ≤ (i 0).val ∧ (i 0).val < (i 0).val / 2000 * 2000 + 2000; omega
    | ⟨1, _⟩ =>
      show win2_5.index _ (1 : Fin 2) * 64 ≤ (i 1).val ∧ (i 1).val < win2_5.index _ (1 : Fin 2) * 64 + 64
      rw [e51]; omega

end Cert.KernelIdeal.Arr2

end
-- ==== Proof.KernelHost.lean ====
/-
  What the host operations leave in the buffers the three regions read. Each region's neighbour means are ONE chain of
  host operations (`meanAggAt`: gather the source nodes' rows, scatter-add them at the destination nodes, divide by the
  clamped in-degree) applied to the features of the layer before and to the two index rows of `edge_index`, which the
  program slices once, before the first region. The chain is carried as one function and never opened. The bias rows
  are the bias vectors reshaped to one row; the weights and the index rows are what the launch memory holds, since no
  host operation and no region writes them.
-/
import proofs.«167249_j60610578481667_1_alg».proof.Proof.Gen.KernelIdeal.Frame
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]

/-- The source-node row of `edge_index`. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination-node row of `edge_index`. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The mean of the neighbours' feature rows: rows of `feat` gathered at the (wrapped) source nodes `s`, summed into
    the destination nodes `d`, divided by the number of incoming edges clamped below at one. -/
def meanAggAt (feat : (⟨S100000x128, .f32⟩ : BufTy).Contents (Elt F)) (s d : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 feat
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (maximumf
        (Host.scatterAdd scatter_S100000x1_S1600000x1_S1600000x1_1_0_0_1
          (broadcastInDim S100000x1 ![] bcast_S_S100000x1 (constant S_ .f32 0x00000000#32))
          (broadcastInDim S1600000x1 ![0] bcast_S1600000_S1600000x1_0 d)
          (broadcastInDim S1600000x1 ![] bcast_S_S1600000x1 (constant S_ .f32 0x3F800000#32)))
        (broadcastInDim S100000x1 ![] bcast_S_S100000x1 (constant S_ .f32 0x3F800000#32))))

/-- A stretch of host operations leaves a buffer none of them writes as it was: each operation's written buffer is
    compared with the goal's. -/
local macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt F) ℓ) (ρ : Dev nD → PrngReg)

/-! ## Before region 0 -/

theorem src_at1 (c : Dev nD) : W1 m ρ c (Proc.devRef .tc main_v1) = srcOf (m ((c : Thread nD τ).loc main_arg1)) := by
  show StableHlo.after hostOps0 (W0 m ρ c) (Proc.devRef .tc main_v1) = _
  after_results
  rfl

theorem dst_at1 (c : Dev nD) : W1 m ρ c (Proc.devRef .tc main_v3) = dstOf (m ((c : Thread nD τ).loc main_arg1)) := by
  show StableHlo.after hostOps0 (W0 m ρ c) (Proc.devRef .tc main_v3) = _
  after_results
  rfl

set_option maxHeartbeats 4000000 in
theorem V1_agg (c : Dev nD) :
    V1 m ρ c main_v21 = meanAggAt (m ((c : Thread nD τ).loc main_arg0)) (srcOf (m ((c : Thread nD τ).loc main_arg1))) (dstOf (m ((c : Thread nD τ).loc main_arg1))) := by
  show StableHlo.after hostOps0 (W0 m ρ c) (Proc.devRef .tc main_v21) = _
  after_results_simp
  rfl

theorem V1_bias (c : Dev nD) : V1 m ρ c main_v22 = shapeCast _ (m ((c : Thread nD τ).loc main_arg4)) shapeCasts_S128_S1x128 := by
  show StableHlo.after hostOps0 (W0 m ρ c) (Proc.devRef .tc main_v22) = _
  after_results
  rfl

theorem V1_own (c : Dev nD) : V1 m ρ c main_arg0 = m ((c : Thread nD τ).loc main_arg0) := by host_keeps hostOps0
theorem V1_left (c : Dev nD) : V1 m ρ c main_arg2 = m ((c : Thread nD τ).loc main_arg2) := by host_keeps hostOps0
theorem V1_right (c : Dev nD) : V1 m ρ c main_arg3 = m ((c : Thread nD τ).loc main_arg3) := by host_keeps hostOps0

/-! ## Between regions 0 and 1: region 0 leaves everything but its own arrays as it found them -/

theorem src_at2 (c : Dev nD) : W2 m ρ c (Proc.devRef .tc main_v1) = srcOf (m ((c : Thread nD τ).loc main_arg1)) :=
  (W2_of_ne m ρ c main_v1 (by decide)).trans (src_at1 m ρ c)
theorem dst_at2 (c : Dev nD) : W2 m ρ c (Proc.devRef .tc main_v3) = dstOf (m ((c : Thread nD τ).loc main_arg1)) :=
  (W2_of_ne m ρ c main_v3 (by decide)).trans (dst_at1 m ρ c)
theorem bias1_at2 (c : Dev nD) : W2 m ρ c (Proc.devRef .tc main_arg7) = m ((c : Thread nD τ).loc main_arg7) :=
  (W2_of_ne m ρ c main_arg7 (by decide)).trans (by host_keeps hostOps0)

set_option maxHeartbeats 4000000 in
theorem V3_agg (c : Dev nD) :
    V3 m ρ c main_v41 = meanAggAt (W2 m ρ c (Proc.devRef .tc main_v23)) (srcOf (m ((c : Thread nD τ).loc main_arg1))) (dstOf (m ((c : Thread nD τ).loc main_arg1))) := by
  rw [← src_at2 m ρ c, ← dst_at2 m ρ c]
  show StableHlo.after hostOps1 (W2 m ρ c) (Proc.devRef .tc main_v41) = _
  after_results_simp
  rfl

theorem V3_own (c : Dev nD) : V3 m ρ c main_v23 = W2 m ρ c (Proc.devRef .tc main_v23) := by host_keeps hostOps1

theorem V3_bias (c : Dev nD) : V3 m ρ c main_v42 = shapeCast _ (m ((c : Thread nD τ).loc main_arg7)) shapeCasts_S128_S1x128 := by
  rw [← bias1_at2 m ρ c]
  show StableHlo.after hostOps1 (W2 m ρ c) (Proc.devRef .tc main_v42) = _
  after_results
  rfl

theorem V3_left (c : Dev nD) : V3 m ρ c main_arg5 = m ((c : Thread nD τ).loc main_arg5) :=
  (show W3 m ρ c (Proc.devRef .tc main_arg5) = W2 m ρ c (Proc.devRef .tc main_arg5) by host_keeps hostOps1).trans
    ((W2_of_ne m ρ c main_arg5 (by decide)).trans (by host_keeps hostOps0))
theorem V3_right (c : Dev nD) : V3 m ρ c main_arg6 = m ((c : Thread nD τ).loc main_arg6) :=
  (show W3 m ρ c (Proc.devRef .tc main_arg6) = W2 m ρ c (Proc.devRef .tc main_arg6) by host_keeps hostOps1).trans
    ((W2_of_ne m ρ c main_arg6 (by decide)).trans (by host_keeps hostOps0))

/-! ## Between regions 1 and 2 -/

theorem src_at4 (c : Dev nD) : W4 m ρ c (Proc.devRef .tc main_v1) = srcOf (m ((c : Thread nD τ).loc main_arg1)) :=
  (W4_of_ne m ρ c main_v1 (by decide)).trans
    ((show W3 m ρ c (Proc.devRef .tc main_v1) = W2 m ρ c (Proc.devRef .tc main_v1) by host_keeps hostOps1).trans (src_at2 m ρ c))
theorem dst_at4 (c : Dev nD) : W4 m ρ c (Proc.devRef .tc main_v3) = dstOf (m ((c : Thread nD τ).loc main_arg1)) :=
  (W4_of_ne m ρ c main_v3 (by decide)).trans
    ((show W3 m ρ c (Proc.devRef .tc main_v3) = W2 m ρ c (Proc.devRef .tc main_v3) by host_keeps hostOps1).trans (dst_at2 m ρ c))
theorem bias2_at4 (c : Dev nD) : W4 m ρ c (Proc.devRef .tc main_arg10) = m ((c : Thread nD τ).loc main_arg10) :=
  (W4_of_ne m ρ c main_arg10 (by decide)).trans
    ((show W3 m ρ c (Proc.devRef .tc main_arg10) = W2 m ρ c (Proc.devRef .tc main_arg10) by host_keeps hostOps1).trans
      ((W2_of_ne m ρ c main_arg10 (by decide)).trans (by host_keeps hostOps0)))

set_option maxHeartbeats 4000000 in
theorem V5_agg (c : Dev nD) :
    V5 m ρ c main_v61 = meanAggAt (W4 m ρ c (Proc.devRef .tc main_v43)) (srcOf (m ((c : Thread nD τ).loc main_arg1))) (dstOf (m ((c : Thread nD τ).loc main_arg1))) := by
  rw [← src_at4 m ρ c, ← dst_at4 m ρ c]
  show StableHlo.after hostOps2 (W4 m ρ c) (Proc.devRef .tc main_v61) = _
  after_results_simp
  rfl

theorem V5_own (c : Dev nD) : V5 m ρ c main_v43 = W4 m ρ c (Proc.devRef .tc main_v43) := by host_keeps hostOps2

theorem V5_bias (c : Dev nD) : V5 m ρ c main_v62 = shapeCast _ (m ((c : Thread nD τ).loc main_arg10)) shapeCasts_S64_S1x64 := by
  rw [← bias2_at4 m ρ c]
  show StableHlo.after hostOps2 (W4 m ρ c) (Proc.devRef .tc main_v62) = _
  after_results
  rfl

theorem V5_left (c : Dev nD) : V5 m ρ c main_arg8 = m ((c : Thread nD τ).loc main_arg8) :=
  (show W5 m ρ c (Proc.devRef .tc main_arg8) = W4 m ρ c (Proc.devRef .tc main_arg8) by host_keeps hostOps2).trans
    ((W4_of_ne m ρ c main_arg8 (by decide)).trans
      ((show W3 m ρ c (Proc.devRef .tc main_arg8) = W2 m ρ c (Proc.devRef .tc main_arg8) by host_keeps hostOps1).trans
        ((W2_of_ne m ρ c main_arg8 (by decide)).trans (by host_keeps hostOps0))))
theorem V5_right (c : Dev nD) : V5 m ρ c main_arg9 = m ((c : Thread nD τ).loc main_arg9) :=
  (show W5 m ρ c (Proc.devRef .tc main_arg9) = W4 m ρ c (Proc.devRef .tc main_arg9) by host_keeps hostOps2).trans
    ((W4_of_ne m ρ c main_arg9 (by decide)).trans
      ((show W3 m ρ c (Proc.devRef .tc main_arg9) = W2 m ρ c (Proc.devRef .tc main_arg9) by host_keeps hostOps1).trans
        ((W2_of_ne m ρ c main_arg9 (by decide)).trans (by host_keeps hostOps0))))

end Cert.KernelIdeal.Host

end
-- ==== Proof.Net.lean ====
/-
  The whole network as one function of the eleven arguments: three SAGEConv layers, each the activation of the affine
  part `lin` of the neighbour means (the shared host chain `meanAggAt` of the layer before) and of the layer
  before itself, tanh after the first two layers and nothing after the third. Both programs are shown to end at
  this function.
-/
import proofs.«167249_j60610578481667_1_alg».proof.Proof.KernelHost
import proofs.«167249_j60610578481667_1_alg».proof.Proof.Spec

noncomputable section

namespace Cert.KernelIdeal.Net

open Idealize.ShloMosaic Cert.KernelIdeal Cert.KernelIdeal.Host Cert.Sage

/-- The neighbour means of `feat` along the edges `e`. -/
def agg (feat : S100000x128.Idx → EReal) (e : (⟨S2x1600000, .i32⟩ : BufTy).Contents (Elt Ideal)) : S100000x128.Idx → EReal :=
  meanAggAt (F := Ideal) feat (srcOf (F := Ideal) e) (dstOf (F := Ideal) e)

/-- The first hidden layer. -/
def h0 (x : S100000x128.Idx → EReal) (e : (⟨S2x1600000, .i32⟩ : BufTy).Contents (Elt Ideal))
    (Wl0 Wr0 : S128x128.Idx → EReal) (b0 : S128.Idx → EReal) : S100000x128.Idx → EReal :=
  layer Ideal.tanh (agg x e) x Wl0 Wr0 (rd1 b0)

/-- The second hidden layer. -/
def h1 (x : S100000x128.Idx → EReal) (e : (⟨S2x1600000, .i32⟩ : BufTy).Contents (Elt Ideal))
    (Wl0 Wr0 : S128x128.Idx → EReal) (b0 : S128.Idx → EReal) (Wl1 Wr1 : S128x128.Idx → EReal) (b1 : S128.Idx → EReal) :
    S100000x128.Idx → EReal :=
  layer Ideal.tanh (agg (h0 x e Wl0 Wr0 b0) e) (h0 x e Wl0 Wr0 b0) Wl1 Wr1 (rd1 b1)

/-- The output layer (no activation). -/
def out (x : S100000x128.Idx → EReal) (e : (⟨S2x1600000, .i32⟩ : BufTy).Contents (Elt Ideal))
    (Wl0 Wr0 : S128x128.Idx → EReal) (b0 : S128.Idx → EReal) (Wl1 Wr1 : S128x128.Idx → EReal) (b1 : S128.Idx → EReal)
    (Wl2 Wr2 : S128x64.Idx → EReal) (b2 : S64.Idx → EReal) : S100000x64.Idx → EReal :=
  layer id (agg (h1 x e Wl0 Wr0 b0 Wl1 Wr1 b1) e) (h1 x e Wl0 Wr0 b0 Wl1 Wr1 b1) Wl2 Wr2 (rd1 b2)

end Cert.KernelIdeal.Net

end
-- ==== Proof.KernelValue.lean ====
/-
  The idealized kernel's run, read: its result array ends at the network function `Net.out` of the arguments. The
  generated frame's run leaves the result at the last boundary's contents; each region's result array is the layer
  of what the region found (KernelArr0 … 2), and what it found is the shared host chain of the layer before, the
  weights and the reshaped bias (KernelHost). A bias row `[1, d]` made by reshaping a vector reads at `(0, q)`
  the vector's entry `q`.
-/
import proofs.«167249_j60610578481667_1_alg».proof.Proof.KernelRun
import proofs.«167249_j60610578481667_1_alg».proof.Proof.KernelArr0
import proofs.«167249_j60610578481667_1_alg».proof.Proof.KernelArr1
import proofs.«167249_j60610578481667_1_alg».proof.Proof.KernelArr2
import proofs.«167249_j60610578481667_1_alg».proof.Proof.Net
import Idealize.ShloMosaic.Lib.ValueLayout

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Host Cert.Sage

variable (m : (ℓ : Loc nD τ sig) → Buf (Elt Ideal) ℓ) (ρ : Dev nD → PrngReg)

/-- Region 0's result array is the first hidden layer. -/
theorem hidden0 (c : Dev nD) :
    W2 m ρ c (Proc.devRef .tc main_v23) = Net.h0 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Arr0.final (V1 m ρ) c).trans ?_)
  show layer Ideal.tanh (V1 m ρ c main_v21) (V1 m ρ c main_arg0) (V1 m ρ c main_arg2) (V1 m ρ c main_arg3) (fun q => V1 m ρ c main_v22 (ix2 (0 : Fin 1) q)) = _
  rw [V1_agg, V1_own, V1_left, V1_right, V1_bias]
  unfold Net.h0 Net.agg
  refine congrArg (layer Ideal.tanh _ _ _ _) (funext fun q => ?_)
  exact shapeCast_a_1a_apply _ _ 0 q

/-- Region 1's result array is the second hidden layer. -/
theorem hidden1 (c : Dev nD) :
    W4 m ρ c (Proc.devRef .tc main_v43) = Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Arr1.final (V3 m ρ) c).trans ?_)
  show layer Ideal.tanh (V3 m ρ c main_v41) (V3 m ρ c main_v23) (V3 m ρ c main_arg5) (V3 m ρ c main_arg6) (fun q => V3 m ρ c main_v42 (ix2 (0 : Fin 1) q)) = _
  rw [V3_agg, V3_own, V3_left, V3_right, V3_bias, hidden0]
  unfold Net.h1 Net.agg
  refine congrArg (layer Ideal.tanh _ _ _ _) (funext fun q => ?_)
  exact shapeCast_a_1a_apply _ _ 0 q

/-- Region 2's result array is the network's output. -/
theorem output (c : Dev nD) :
    W6 m ρ c (Proc.devRef .tc main_v63) = Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Arr2.final (V5 m ρ) c).trans ?_)
  show layer id (V5 m ρ c main_v61) (V5 m ρ c main_v43) (V5 m ρ c main_arg8) (V5 m ρ c main_arg9) (fun q => V5 m ρ c main_v62 (ix2 (0 : Fin 1) q)) = _
  rw [V5_agg, V5_own, V5_left, V5_right, V5_bias, hidden1]
  unfold Net.out Net.agg
  refine congrArg (layer id _ _ _ _) (funext fun q => ?_)
  exact shapeCast_a_1a_apply _ _ 0 q

/-- THE RUN, READ: every weakly fair execution of the idealized kernel terminates with the result array at the network
    function of the arguments and the arguments as launched. -/
theorem run : θ_run defs (onTc (τ := τ) (main (F := Ideal))) ⟨m, fun _ => 0, ρ⟩ (fun r => ∀ c : Dev nD,
      r.2.mem ((c.tc : Thread nD τ).loc main_v63) = Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (output m ρ c), (h c).2⟩) (run_result m ρ)

end Cert.KernelIdeal.Value

end
-- ==== Proof.RefLayer.lean ====
/-
  One layer of the reference, read at an index. The reference multiplies the neighbour means and the node's own
  features by their weights with two `dot_general`s over all rows, adds them, adds the bias (broadcast to one row,
  then over all rows) and, in the first two layers, applies tanh. At row `p`, column `q` that is the activation of
  the affine part `lin`: each `dot_general` is the sum over the one contracted axis, re-indexed to `Fin 128`, and the
  twice-broadcast bias reads the vector's entry `q`. Stated for arbitrary operands, so nothing in it can be opened.
-/
import proofs.«167249_j60610578481667_1_alg».proof.Proof.Gen.ReferenceIdeal.Read
import proofs.«167249_j60610578481667_1_alg».proof.Proof.Spec
import Idealize.ShloMosaic.Lib.ValueIdx
import Idealize.ShloMosaic.Lib.Pipeline.Value
import Idealize.ShloMosaic.PureOps.Ideal.Laws

noncomputable section

namespace Cert.ReferenceIdeal.RefLayer

open Idealize.ShloMosaic Idealize.ShloMosaic.ValueIdx
open Cert.ReferenceIdeal Cert.ReferenceIdeal.Gen Cert.ReferenceIdeal.Read Cert.Sage

/-! ## The hidden layers: 128 features in, 128 out, tanh -/

/-- A `[100000,128] × [128,128]` product on the host at row `p`, column `q`. -/
theorem dot128_apply {φ₁ φ₂ : FTy} (l : FVec Ideal S100000x128 φ₁) (r : FVec Ideal S128x128 φ₂) (p : Fin 100000) (q : Fin 128) :
    Host.dotGeneral dot_S100000x128_S128x128_S100000x128_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact lhs_main_v23_0 _ _
    | ⟨1, _⟩ => exact (lhs_main_v23_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (rhs_main_v23_0 _ _).trans hk
    | ⟨1, _⟩ => exact rhs_main_v23_1 _ _)
  rw [el, er]

/-- The bias vector broadcast to one row and then over all rows reads, at `(p, q)`, its entry `q`. -/
theorem bias128_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) := by
  refine (broadcastInDim_apply _ bcast_S1x128_S100000x128_0_1 _ (ix2 p q) (ix2 (0 : Fin 1) q) (fun a => ?_)).trans
    (broadcastInDim_apply _ bcast_S128_S1x128_1 b (ix2 (0 : Fin 1) q) (ix1 q) (fun a => ?_))
  · match a with
    | ⟨0, _⟩ => show 0 = if (1 : Nat) = 1 then 0 else p.val; rw [if_pos rfl]
    | ⟨1, _⟩ => show q.val = if (128 : Nat) = 1 then 0 else q.val; rw [if_neg (by decide)]
  · match a with
    | ⟨0, _⟩ => show q.val = if (128 : Nat) = 1 then 0 else q.val; rw [if_neg (by decide)]

/-- A hidden layer of the reference is `layer tanh` of its operands. -/
theorem hidden (a x : FVec Ideal S100000x128 .f32) (Wl Wr : FVec Ideal S128x128 .f32) (b : FVec Ideal S128 .f32) :
    Host.tanh (addf (addf (Host.dotGeneral dot_S100000x128_S128x128_S100000x128_1_0_0_1_n_n none a Wl)
        (Host.dotGeneral dot_S100000x128_S128x128_S100000x128_1_0_0_1_n_n none x Wr))
      (broadcastInDim S100000x128 ![0, 1] bcast_S1x128_S100000x128_0_1 (broadcastInDim S1x128 ![1] bcast_S128_S1x128_1 b)))
    = layer Ideal.tanh a x Wl Wr (rd1 b) := by
  funext i
  obtain ⟨p, q, rfl⟩ : ∃ (p : Fin 100000) (q : Fin 128), i = ix2 p q := ⟨i 0, i 1, eq_ix2 i⟩
  show Ideal.tanh ((Host.dotGeneral (F := Ideal) _ none a Wl (ix2 p q) + Host.dotGeneral (F := Ideal) _ none x Wr (ix2 p q))
    + broadcastInDim S100000x128 ![0, 1] bcast_S1x128_S100000x128_0_1 (broadcastInDim S1x128 ![1] bcast_S128_S1x128_1 b) (ix2 p q)) = _
  rw [dot128_apply, dot128_apply, bias128_apply]
  rfl

/-! ## The output layer: 128 features in, 64 out, no activation -/

/-- A `[100000,128] × [128,64]` product on the host at row `p`, column `q`. -/
theorem dot64_apply {φ₁ φ₂ : FTy} (l : FVec Ideal S100000x128 φ₁) (r : FVec Ideal S128x64 φ₂) (p : Fin 100000) (q : Fin 64) :
    Host.dotGeneral dot_S100000x128_S128x64_S100000x64_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 p q) ((ValueIdx.contrEquiv1 dot_S100000x128_S128x64_S100000x64_1_0_0_1_n_n 128 rfl rfl).symm k) = ix2 p k := funext fun a => Fin.ext (by
    match a with
    | ⟨0, _⟩ => exact lhs_main_v72_0 _ _
    | ⟨1, _⟩ => exact (lhs_main_v72_1 _ _).trans hk)
  have er : dot_S100000x128_S128x64_S100000x64_1_0_0_1_n_n.rhsIdx (ix2 p q) ((ValueIdx.contrEquiv1 dot_S100000x128_S128x64_S100000x64_1_0_0_1_n_n 128 rfl rfl).symm k) = ix2 k q := funext fun a => Fin.ext (by
    match a with
    | ⟨0, _⟩ => exact (rhs_main_v72_0 _ _).trans hk
    | ⟨1, _⟩ => exact rhs_main_v72_1 _ _)
  rw [el, er]

/-- The output layer's bias at `(p, q)` is its entry `q`. -/
theorem bias64_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  refine (broadcastInDim_apply _ bcast_S1x64_S100000x64_0_1 _ (ix2 p q) (ix2 (0 : Fin 1) q) (fun a => ?_)).trans
    (broadcastInDim_apply _ bcast_S64_S1x64_1 b (ix2 (0 : Fin 1) q) (ix1 q) (fun a => ?_))
  · match a with
    | ⟨0, _⟩ => show 0 = if (1 : Nat) = 1 then 0 else p.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-- The output layer of the reference is `layer id` of its operands. -/
theorem last (a x : FVec Ideal S100000x128 .f32) (Wl Wr : FVec Ideal S128x64 .f32) (b : FVec Ideal S64 .f32) :
    addf (addf (Host.dotGeneral dot_S100000x128_S128x64_S100000x64_1_0_0_1_n_n none a Wl)
        (Host.dotGeneral dot_S100000x128_S128x64_S100000x64_1_0_0_1_n_n none x Wr))
      (broadcastInDim S100000x64 ![0, 1] bcast_S1x64_S100000x64_0_1 (broadcastInDim S1x64 ![1] bcast_S64_S1x64_1 b))
    = layer id a x Wl Wr (rd1 b) := by
  funext i
  obtain ⟨p, q, rfl⟩ : ∃ (p : Fin 100000) (q : Fin 64), i = ix2 p q := ⟨i 0, i 1, eq_ix2 i⟩
  show id ((Host.dotGeneral (F := Ideal) _ none a Wl (ix2 p q) + Host.dotGeneral (F := Ideal) _ none x Wr (ix2 p q))
    + broadcastInDim S100000x64 ![0, 1] bcast_S1x64_S100000x64_0_1 (broadcastInDim S1x64 ![1] bcast_S64_S1x64_1 b) (ix2 p q)) = _
  rw [dot64_apply, dot64_apply, bias64_apply]
  rfl

end Cert.ReferenceIdeal.RefLayer

end
-- ==== Proof.RefValue.lean ====
/-
  The idealized reference's run, read: its result is the same network function `Net.out` of the arguments. Each
  layer's last stage is, by the stages' definitions, the reference's layer applied to the stages before it, which is
  `layer` of them (RefLayer); and each layer's neighbour means are the same chain of host operations the kernel's
  program applies (`Net.agg`: the two programs' gather and scatter records have the same fields).
-/
import proofs.«167249_j60610578481667_1_alg».proof.Proof.Gen.ReferenceIdeal.Read
import proofs.«167249_j60610578481667_1_alg».proof.Proof.RefLayer
import proofs.«167249_j60610578481667_1_alg».proof.Proof.Net

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Sage
open Cert.KernelIdeal (Net.agg Net.h0 Net.h1 Net.out)

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 x9 : (⟨S128x64, .f32⟩ : BufTy).Contents (Elt Ideal)) (x10 : (⟨S64, .f32⟩ : BufTy).Contents (Elt Ideal))

/-! ## Each layer's last stage is the layer of the stages before it -/

theorem layer0 : val_main_v28 (F := Ideal) x0 x1 x2 x3 x4 = layer Ideal.tanh (val_main_v21 (F := Ideal) x0 x1) x0 x2 x3 (rd1 x4) := by
  unfold val_main_v28 val_main_v27 val_main_v24 val_main_v22 val_main_v23 val_main_v26 val_main_v25
  exact RefLayer.hidden (val_main_v21 (F := Ideal) x0 x1) x0 x2 x3 x4

theorem layer1 : val_main_v53 (F := Ideal) x0 x1 x2 x3 x4 x5 x6 x7
    = layer Ideal.tanh (val_main_v46 (F := Ideal) x0 x1 x2 x3 x4) (val_main_v28 (F := Ideal) x0 x1 x2 x3 x4) x5 x6 (rd1 x7) := by
  unfold val_main_v53 val_main_v52 val_main_v49 val_main_v47 val_main_v48 val_main_v51 val_main_v50
  exact RefLayer.hidden (val_main_v46 (F := Ideal) x0 x1 x2 x3 x4) (val_main_v28 (F := Ideal) x0 x1 x2 x3 x4) x5 x6 x7

theorem layer2 : val_main_v77 (F := Ideal) x0 x1 x2 x3 x4 x5 x6 x7 x8 x9 x10
    = layer id (val_main_v71 (F := Ideal) x0 x1 x2 x3 x4 x5 x6 x7) (val_main_v53 (F := Ideal) x0 x1 x2 x3 x4 x5 x6 x7) x8 x9 (rd1 x10) := by
  unfold val_main_v77 val_main_v74 val_main_v72 val_main_v73 val_main_v76 val_main_v75
  exact RefLayer.last (val_main_v71 (F := Ideal) x0 x1 x2 x3 x4 x5 x6 x7) (val_main_v53 (F := Ideal) x0 x1 x2 x3 x4 x5 x6 x7) x8 x9 x10

/-! ## Each layer's neighbour means are the shared host chain -/

theorem agg0 : val_main_v21 (F := Ideal) x0 x1 = Net.agg x0 x1 := rfl

theorem agg1 : val_main_v46 (F := Ideal) x0 x1 x2 x3 x4 = Net.agg (val_main_v28 (F := Ideal) x0 x1 x2 x3 x4) x1 := rfl

theorem agg2 : val_main_v71 (F := Ideal) x0 x1 x2 x3 x4 x5 x6 x7 = Net.agg (val_main_v53 (F := Ideal) x0 x1 x2 x3 x4 x5 x6 x7) x1 := rfl

/-! ## The reference's result -/

theorem hidden0 : val_main_v28 (F := Ideal) x0 x1 x2 x3 x4 = Net.h0 x0 x1 x2 x3 x4 := by
  rw [layer0, agg0]; rfl

theorem hidden1 : val_main_v53 (F := Ideal) x0 x1 x2 x3 x4 x5 x6 x7 = Net.h1 x0 x1 x2 x3 x4 x5 x6 x7 := by
  rw [layer1, agg1, hidden0]; rfl

theorem output : val_main_v77 (F := Ideal) x0 x1 x2 x3 x4 x5 x6 x7 x8 x9 x10 = Net.out x0 x1 x2 x3 x4 x5 x6 x7 x8 x9 x10 := by
  rw [layer2, agg2, hidden1]; rfl

end Cert.ReferenceIdeal.RefValue

end
-- ==== Proof.lean ====
/-
  GraphSAGE with three mean-aggregation layers: the Pallas kernel against its jnp reference, over the extended reals.

  Both programs compute, layer by layer, `act((mean_{j → i} h_j) · Wl + h_i · Wr + b)` with `act = tanh` after the first two
  layers and the identity after the third. The neighbour mean is the same chain of host operations in both (gather the
  source rows, scatter-add at the destination rows, divide by the clamped in-degree) and is carried as one function,
  never opened. The dense part differs only in how it is laid out: the reference takes two `dot_general`s over all
  100000 rows, adds them, adds the bias broadcast over the rows, and applies tanh; the kernel does the same on blocks
  of 2000 rows, feeding the products in bf16 (the identity on the extended reals) into a zero accumulator. Read at a
  row `p` and a column `q` both are `(Σ_k a[p,k]·Wl[k,q] + Σ_k x[p,k]·Wr[k,q]) + b[q]` in that very grouping, so the
  two results are one function of the arguments (`Net.out`) and no finiteness of the inputs is used.

  The word-level kernel's and the idealized kernel's frames are the generated ones; the reference's frame is its
  generated run with the result dropped; the ideal pass rewrote nothing, so `preserves` is trivial.
-/
import proofs.«167249_j60610578481667_1_alg».proof.Defs
import proofs.«167249_j60610578481667_1_alg».proof.Proof.Gen.Kernel
import proofs.«167249_j60610578481667_1_alg».proof.Proof.Gen.Kernel.Skeleton
import proofs.«167249_j60610578481667_1_alg».proof.Proof.Gen.Kernel.Launch
import proofs.«167249_j60610578481667_1_alg».proof.Proof.Gen.Kernel.Points
import proofs.«167249_j60610578481667_1_alg».proof.Proof.Gen.Kernel.Frame
import proofs.«167249_j60610578481667_1_alg».proof.Proof.Gen.KernelIdeal
import proofs.«167249_j60610578481667_1_alg».proof.Proof.Gen.KernelIdeal.Skeleton
import proofs.«167249_j60610578481667_1_alg».proof.Proof.Gen.KernelIdeal.Launch
import proofs.«167249_j60610578481667_1_alg».proof.Proof.Gen.KernelIdeal.Points
import proofs.«167249_j60610578481667_1_alg».proof.Proof.Gen.KernelIdeal.Frame
import proofs.«167249_j60610578481667_1_alg».proof.Proof.Gen.ReferenceIdeal
import proofs.«167249_j60610578481667_1_alg».proof.Proof.Gen.ReferenceIdeal.Run
import proofs.«167249_j60610578481667_1_alg».proof.Proof.Gen.ReferenceIdeal.Read
import proofs.«167249_j60610578481667_1_alg».proof.Proof.Gen.Pre_finite_inputs
import proofs.«167249_j60610578481667_1_alg».proof.Proof.KernelValue
import proofs.«167249_j60610578481667_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the network function of the arguments: the kernel's run read through
    its three regions, the reference's run read through its stages, from memories that agree on the arguments. -/
theorem algebraic : Cert.algebraic_KernelIdeal_ReferenceIdeal := by
  intro m ρ m' ρ' _ hagree
  refine ⟨fun c => Cert.KernelIdeal.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, Cert.ReferenceIdeal.RefValue.output]
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
